-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x64 : Shape := ⟨4, ![1, 16, 2048, 64]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel

variable [Facts]

def fn {F : FTy → Type} [FloatOps F] (main_arg0 : FVec F S1x16x2048x64 .f32) (main_arg1 : FVec F S1x16x2048x64 .f32) (main_arg2 : FVec F S1x16x2048x64 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  let main_v9 : FVec F S1x16x2048x64 .f32 := Host.absf main_arg2
  let main_cst_2 : FVec F S_ .f32 := constant S_ .f32 0x7F800000#32
  let main_v10 : FVec F S1x16x2048x64 .f32 := broadcastInDim S1x16x2048x64 ![] bcast_S_S1x16x2048x64 main_cst_2
  let main_v11 : IVec S1x16x2048x64 1 := cmpf .olt main_v9 main_v10
  let main_c_3 : IVec S_ 1 := constantI S_ 1 1#1
  let main_v12 : IVec S_ 1 := (fun x v => Host.reduce IntOp.andi x v reducesTo_S1x16x2048x64_S_d0_1_2_3 h_S_) main_v11 main_c_3
  let main_v13 : IVec S_ 1 := andi main_v8 main_v12
  main_v13
-- ==== Kernel.lean ====
abbrev S1x16x2048x64 : Shape := ⟨4, ![1, 16, 2048, 64]⟩
abbrev S1x16x2048x2048 : Shape := ⟨4, ![1, 16, 2048, 2048]⟩
abbrev S1x1x1024x64 : Shape := ⟨4, ![1, 1, 1024, 64]⟩
abbrev S1x1x2048x64 : Shape := ⟨4, ![1, 1, 2048, 64]⟩
abbrev S1x1x1024x2048 : Shape := ⟨4, ![1, 1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x2048x64, .f32⟩
  | .hbm, ⟨4, _⟩ => ⟨S1x16x2048x2048, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x1024x64, .f32⟩
  | .local _ .vmem, ⟨7, _⟩ => ⟨S1x1x1024x64, .f32⟩
  | .local _ .vmem, ⟨8, _⟩ => ⟨S1x1x1024x2048, .f32⟩
  | .local _ .vmem, ⟨9, _⟩ => ⟨S1x1x1024x2048, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  shapeCasts_S1024x2048_S1x1x1024x2048 : S1024x2048.ShapeCasts S1x1x1024x2048
  shapeCasts_S1024x64_S1x1x1024x64 : S1024x64.ShapeCasts S1x1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S1x16x2048x64.size a
  hwx0_0 : ∀ i : grid0.Coords, EltTy.bits .f32 = 32 ∨ (Rect.block (s := S1x16x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S1x16x2048x64.size a
  hwx0_1 : ∀ i : grid0.Coords, EltTy.bits .f32 = 32 ∨ (Rect.block (s := S1x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S1x16x2048x64.size a
  hwx0_2 : ∀ i : grid0.Coords, EltTy.bits .f32 = 32 ∨ (Rect.block (s := S1x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x64.size a ≤ S1x16x2048x64.size a
  hwx0_3 : ∀ i : grid0.Coords, EltTy.bits .f32 = 32 ∨ (Rect.block (s := S1x16x2048x64) S1x1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x2048.size a ≤ S1x16x2048x2048.size a
  hwx0_4 : ∀ i : grid0.Coords, EltTy.bits .f32 = 32 ∨ (Rect.block (s := S1x16x2048x2048) S1x1x1024x2048.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x16x2048x64 : Shape := ⟨4, ![1, 16, 2048, 64]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x2048x2048, .f32⟩
  | .hbm, ⟨4, _⟩ => ⟨S_, .f32⟩
  | .hbm, ⟨5, _⟩ => ⟨S1x16x2048x2048, .f32⟩
  | .hbm, ⟨6, _⟩ => ⟨S1x16x2048x2048, .f32⟩
  | .hbm, ⟨7, _⟩ => ⟨S_, .f32⟩
  | .hbm, ⟨8, _⟩ => ⟨S1x16x2048, .f32⟩
  | .hbm, ⟨9, _⟩ => ⟨S_, .f32⟩
  | .hbm, ⟨10, _⟩ => ⟨S1x16x2048, .f32⟩
  | .hbm, ⟨11, _⟩ => ⟨S1x16x2048, .f32⟩
  | .hbm, ⟨12, _⟩ => ⟨S1x16x2048x1, .f32⟩
  | .hbm, ⟨13, _⟩ => ⟨S1x16x2048x2048, .f32⟩
  | .hbm, ⟨14, _⟩ => ⟨S1x16x2048x2048, .f32⟩
  | .hbm, ⟨15, _⟩ => ⟨S1x16x2048x2048, .f32⟩
  | .hbm, ⟨16, _⟩ => ⟨S_, .f32⟩
  | .hbm, ⟨17, _⟩ => ⟨S1x16x2048, .f32⟩
  | .hbm, ⟨18, _⟩ => ⟨S1x16x2048x1, .f32⟩
  | .hbm, ⟨19, _⟩ => ⟨S1x16x2048x2048, .f32⟩
  | .hbm, ⟨20, _⟩ => ⟨S1x16x2048x2048, .f32⟩
  | .hbm, ⟨21, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S1x16x2048x2048 : S_.BroadcastsInDim S1x16x2048x2048 (![] : Fin 0 → Fin S1x16x2048x2048.rank)
  reducesTo_S1x16x2048x2048_S1x16x2048_d3 : S1x16x2048x2048.ReducesTo [3] S1x16x2048
  h_S_ : 0 < S_.numel
  bcast_S_S1x16x2048 : S_.BroadcastsInDim S1x16x2048 (![] : Fin 0 → Fin S1x16x2048.rank)
  bcast_S1x16x2048_S1x16x2048x1_0_1_2 : S1x16x2048.BroadcastsInDim S1x16x2048x1 (![0, 1, 2] : Fin 3 → Fin S1x16x2048x1.rank)
  bcast_S1x16x2048x1_S1x16x2048x2048_0_1_2_3 : S1x16x2048x1.BroadcastsInDim S1x16x2048x2048 (![0, 1, 2, 3] : Fin 4 → Fin S1x16x2048x2048.rank)
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.Softmax.lean ====
/-
  Row softmax on the extended reals, free of any program.

  For a row of scores `s : Fin n → EReal` write `M = max_k s k` (the fold of `max` from `-∞`),
  `e k = exp (s k - M)` and `L = Σ_k e k`. One program forms the row's weights as `e k / L`, the other as
  `e k · (1 / L)`. With the corner conventions of the ideal division (`x / 0` is an infinity by the sign of `x`,
  `0 / 0 = -∞`) the two agree exactly when `L ≠ 0` or `e k ≠ 0`; they differ at `L = 0`, `e k = 0`
  (`0 · (1/0) = 0 · ∞ = 0` against `0 / 0 = -∞`), which happens only for a row whose scores are all `-∞`.
  So the bridge needs the row's scores to be real numbers: then `M < ∞`, every `s k - M > -∞`, every `e k > 0`,
  and a sum of non-negative terms one of which is positive is not zero.

  Also here: the three float words the two programs spell (`-∞`, `8`, `1/8`), and that dividing by `8` is
  multiplying by `1/8` at EVERY extended real, the infinities included.
-/
import Idealize.ShloMosaic.PureOps.Ideal
import Idealize.ShloMosaic.PureOps.Ideal.Laws

noncomputable section

namespace Cert.Softmax

open Idealize.ShloMosaic

/-! ## The words -/

/-- The word `0xFF800000` is `-∞`, the bottom of the extended reals. -/
theorem ofBits_neg_inf : Ideal.ofBits .f32 0xFF800000#32 = ⊥ := by
  simp [Ideal.ofBits, Ideal.ieee]

/-- The word `0x41000000` is the real `8`. -/
theorem ofBits_eight : Ideal.ofBits .f32 0x41000000#32 = ((8 : ℝ) : EReal) := by
  simp [Ideal.ofBits, Ideal.ieee, -EReal.coe_mul]; norm_num

/-- The word `0x3E000000` is the real `1/8`. -/
theorem ofBits_eighth : Ideal.ofBits .f32 0x3E000000#32 = ((1 / 8 : ℝ) : EReal) := by
  simp [Ideal.ofBits, Ideal.ieee, -EReal.coe_mul]; norm_num

/-- Dividing by `8` is multiplying by `1/8`, at every extended real. -/
theorem div_eight (x : EReal) :
    Ideal.div x (Ideal.ofBits .f32 0x41000000#32) = x * Ideal.ofBits .f32 0x3E000000#32 := by
  rw [ofBits_eight, ofBits_eighth, Ideal.div_coe (by norm_num)]

/-! ## The exponential's sign -/

theorem exp_nonneg (x : EReal) : 0 ≤ Ideal.exp x := by
  induction x using EReal.rec
  · rw [Ideal.exp_bot]
  · rw [Ideal.exp_coe]; exact_mod_cast (Real.exp_pos _).le
  · rw [Ideal.exp_top]; exact le_top

theorem exp_ne_zero {x : EReal} (h : x ≠ ⊥) : Ideal.exp x ≠ 0 := by
  induction x using EReal.rec
  · exact absurd rfl h
  · rw [Ideal.exp_coe]; exact_mod_cast (Real.exp_pos _).ne'
  · rw [Ideal.exp_top]; exact EReal.top_ne_zero

/-- A difference is `-∞` only if the minuend is `-∞` or the subtrahend `+∞`. -/
theorem sub_ne_bot {x y : EReal} (hx : x ≠ ⊥) (hy : y ≠ ⊤) : x - y ≠ ⊥ := by
  rw [sub_eq_add_neg, Ne, EReal.add_eq_bot_iff, EReal.neg_eq_bot_iff]
  exact fun h => h.elim hx hy

/-! ## A row -/

variable {n : Nat}

/-- The row's maximum: the fold of `max` from `-∞`. -/
def rowMax (s : Fin n → EReal) : EReal := (Finset.univ : Finset (Fin n)).fold max ⊥ s

/-- The row's shifted exponentials. -/
def rowExp (s : Fin n → EReal) (k : Fin n) : EReal := Ideal.exp (s k - rowMax s)

/-- Their sum. -/
def rowSum (s : Fin n → EReal) : EReal := ∑ k, rowExp s k

/-- The row's weights, as a quotient. -/
def weight (s : Fin n → EReal) (k : Fin n) : EReal := Ideal.div (rowExp s k) (rowSum s)

/-- A maximum taken against `-∞` once more is the same maximum. -/
theorem max_bot_rowMax (s : Fin n → EReal) : max ⊥ (rowMax s) = rowMax s := max_eq_right bot_le

theorem rowMax_ne_top (s : Fin n → EReal) (h : ∀ k, s k ≠ ⊤) : rowMax s ≠ ⊤ := by
  have hlt : rowMax s < ⊤ := by
    unfold rowMax
    rw [Finset.fold_max_lt]
    exact ⟨bot_lt_top, fun k _ => lt_top_iff_ne_top.mpr (h k)⟩
  exact hlt.ne

/-- A row with one score above `-∞` and none at `+∞` has a non-zero sum of exponentials. -/
theorem rowSum_ne_zero (s : Fin n → EReal) (k₀ : Fin n) (hb : s k₀ ≠ ⊥) (ht : ∀ k, s k ≠ ⊤) : rowSum s ≠ 0 := by
  intro h0
  have hz := (Finset.sum_eq_zero_iff_of_nonneg (fun k _ => exp_nonneg (s k - rowMax s))).mp h0 k₀ (Finset.mem_univ _)
  exact exp_ne_zero (sub_ne_bot hb (rowMax_ne_top s ht)) hz

/-- Off a zero divisor, the product with the reciprocal is the quotient. -/
theorem mul_one_div {p l : EReal} (hl : l ≠ 0) : p * Ideal.div 1 l = Ideal.div p l := by
  unfold Ideal.div
  rw [if_neg hl, if_neg hl, one_mul]

/-- So for a row of real scores the weights formed with the reciprocal are the quotients. -/
theorem rowExp_mul_one_div (s : Fin n → EReal) (k : Fin n) (hs : ∀ j, ∃ r : ℝ, s j = (r : EReal)) :
    rowExp s k * Ideal.div 1 (rowSum s) = weight s k := by
  refine mul_one_div (rowSum_ne_zero s k ?_ ?_)
  · obtain ⟨r, hr⟩ := hs k; rw [hr]; exact EReal.coe_ne_bot r
  · intro j; obtain ⟨r, hr⟩ := hs j; rw [hr]; exact EReal.coe_ne_top r

/-! ## Real scores -/

/-- The coercion of a finite real sum is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A scaled dot product of real vectors is real. -/
theorem scaled_dot_real {d : Nat} (a b : Fin d → EReal) (c : ℝ) (ha : ∀ i, ∃ r : ℝ, a i = (r : EReal))
    (hb : ∀ i, ∃ r : ℝ, b i = (r : EReal)) : ∃ r : ℝ, (∑ i, a i * b i) * (c : EReal) = (r : EReal) := by
  choose fa hfa using ha
  choose fb hfb using hb
  refine ⟨(∑ i, fa i * fb i) * c, ?_⟩
  rw [EReal.coe_mul, coe_sum]
  refine congrArg (· * (c : EReal)) (Finset.sum_congr rfl fun i _ => ?_)
  rw [hfa, hfb, EReal.coe_mul]

end Cert.Softmax

end
-- ==== Proof.Spec.lean ====
/-
  Scaled dot-product attention over one batch, sixteen heads, 2048 positions and head width 64, as functions of
  the three argument arrays, index by index on the extended reals.

  For head `h` and query position `q` the row of scores is `s k = (Σ_d Q[0,h,q,d] · K[0,h,k,d]) · (1/8)`
  (`1/8 = 1/√64`, an exact binary fraction). The attention weights are that row's softmax,
  `A[0,h,q,k] = exp (s k - max s) / Σ_k' exp (s k' - max s)`, and the context is
  `C[0,h,q,d] = Σ_k A[0,h,q,k] · V[0,h,k,d]`.
-/
import proofs.«179767_j70695161692391_1_alg».proof.Proof.Softmax
import Idealize.ShloMosaic.Lib.ValueIdx

noncomputable section

namespace Cert.Attention

open Idealize.ShloMosaic Idealize.ShloMosaic.ValueIdx Cert.Softmax

/-- The shape of queries, keys, values and the context. -/
abbrev Sqkv : Shape := ⟨4, ![1, 16, 2048, 64]⟩
/-- The shape of the attention weights. -/
abbrev Sattn : Shape := ⟨4, ![1, 16, 2048, 2048]⟩

/-- The row of scaled scores of head `h`, query position `q`. -/
def score (Q K : Sqkv.Idx → EReal) (h : Fin 16) (q : Fin 2048) : Fin 2048 → EReal := fun k =>
  (∑ d : Fin 64, Q (ix4 (0 : Fin 1) h q d) * K (ix4 (0 : Fin 1) h k d)) * Ideal.ofBits .f32 0x3E000000#32

/-- The attention weights: each row's softmax. -/
def attn (Q K : Sqkv.Idx → EReal) : Sattn.Idx → EReal := fun i => weight (score Q K (i 1) (i 2)) (i 3)

/-- The context: the weights applied to the values. -/
def ctx (Q K V : Sqkv.Idx → EReal) : Sqkv.Idx → EReal := fun i =>
  ∑ k : Fin 2048, weight (score Q K (i 1) (i 2)) k * V (ix4 (0 : Fin 1) (i 1) k (i 3))

/-- Real queries and keys give real scores. -/
theorem score_real (Q K : Sqkv.Idx → EReal) (hQ : ∀ i, ∃ r : ℝ, Q i = (r : EReal)) (hK : ∀ i, ∃ r : ℝ, K i = (r : EReal))
    (h : Fin 16) (q k : Fin 2048) : ∃ r : ℝ, score Q K h q k = (r : EReal) := by
  unfold score
  rw [ofBits_eighth]
  exact scaled_dot_real _ _ _ (fun d => hQ _) (fun d => hK _)

end Cert.Attention

end
-- ==== Proof.RefAttention.lean ====
/-
  The reference's two results are the attention weights and the context of `Spec.lean`.

  Stage by stage: the batched product of queries and keys divided by `8` is the scaled score (division by `8` is
  the product with `1/8` at every extended real); the reduction by `max` from `-∞` over the last axis is the row's
  maximum, and the further `max` against `-∞` changes nothing; the exponential of the difference, its sum over
  the last axis from `0`, and the quotient are the row's weights; the second batched product sums weight times
  value over the key position.
-/
import proofs.«179767_j70695161692391_1_alg».proof.Proof.Gen.ReferenceIdeal.Read
import proofs.«179767_j70695161692391_1_alg».proof.Proof.Spec
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Cert.Softmax Cert.Attention

variable (Q K V : (⟨S1x16x2048x64, .f32⟩ : BufTy).Contents (Elt Ideal))

/-! ## The index maps of the two batched products, in coordinates -/

theorem lidx0_eq (i : S1x16x2048x2048.Idx) (k : Fin 64) : lidx_main_v0 i k = ix4 (0 : Fin 1) (i 1) (i 2) k :=
  funext fun a => Fin.ext (by
    match a with
    | ⟨0, _⟩ => show (i 0).val = 0; have h : (i 0).val < 1 := (i 0).isLt; omega
    | ⟨1, _⟩ => rfl
    | ⟨2, _⟩ => rfl
    | ⟨3, _⟩ => rfl)

theorem ridx0_eq (i : S1x16x2048x2048.Idx) (k : Fin 64) : ridx_main_v0 i k = ix4 (0 : Fin 1) (i 1) (i 3) k :=
  funext fun a => Fin.ext (by
    match a with
    | ⟨0, _⟩ => show (i 0).val = 0; have h : (i 0).val < 1 := (i 0).isLt; omega
    | ⟨1, _⟩ => rfl
    | ⟨2, _⟩ => rfl
    | ⟨3, _⟩ => rfl)

theorem ridx14_eq (i : S1x16x2048x64.Idx) (k : Fin 2048) : ridx_main_v14 i k = ix4 (0 : Fin 1) (i 1) k (i 3) :=
  funext fun a => Fin.ext (by
    match a with
    | ⟨0, _⟩ => show (i 0).val = 0; have h : (i 0).val < 1 := (i 0).isLt; omega
    | ⟨1, _⟩ => rfl
    | ⟨2, _⟩ => rfl
    | ⟨3, _⟩ => rfl)

/-! ## The stages -/

/-- The scaled scores. -/
theorem scores_eq (i : S1x16x2048x2048.Idx) : val_main_v2 (F := Ideal) Q K i = score Q K (i 1) (i 2) (i 3) := by
  rw [val_main_v2_apply, val_main_v0_apply, val_main_v1_apply, val_main_cst_apply]
  simp only [lidx0_eq, ridx0_eq]
  exact div_eight _

/-- The last axis of the scores is the one reduced. -/
theorem red3 : S1x16x2048x2048.Reduces [3] S1x16x2048 := by decide

/-- The reduction by `max` is the row's maximum. -/
theorem rowmax_eq (j : S1x16x2048.Idx) : val_main_v3 (F := Ideal) Q K j = rowMax (score Q K (j 1) (j 2)) := by
  unfold val_main_v3
  rw [Host.reduce_eq_fold_single FloatOps.maximumf _ _ reducesTo_S1x16x2048x2048_S1x16x2048_d3 red3 h_S_ j]
  have ef : (val_main_v2 (F := Ideal) Q K ∘ red3.lift j) = score Q K (j 1) (j 2) := funext fun k => by
    show val_main_v2 (F := Ideal) Q K (red3.lift j k) = _
    rw [scores_eq]
    exact congr (congr (congrArg (score Q K) (Fin.ext rfl)) (Fin.ext rfl)) (Fin.ext rfl)
  rw [ef]
  show (Finset.univ : Finset (Fin 2048)).fold max (Ideal.ofBits .f32 0xFF800000#32) _ = _
  rw [ofBits_neg_inf]
  rfl

/-- Taken against `-∞` once more it is the same. -/
theorem rowmax'_eq (j : S1x16x2048.Idx) : val_main_v5 (F := Ideal) Q K j = rowMax (score Q K (j 1) (j 2)) := by
  rw [val_main_v5_apply, val_main_v4_apply, val_main_cst_1_apply, rowmax_eq]
  show max (Ideal.ofBits .f32 0xFF800000#32) _ = _
  rw [ofBits_neg_inf]
  exact max_bot_rowMax _

/-- Broadcast back along the row. -/
theorem rowmax_bcast_eq (i : S1x16x2048x2048.Idx) : val_main_v7 (F := Ideal) Q K i = rowMax (score Q K (i 1) (i 2)) := by
  rw [val_main_v7_apply, val_main_v6_apply, rowmax'_eq]
  rfl

/-- The shifted exponentials. -/
theorem exps_eq (i : S1x16x2048x2048.Idx) : val_main_v9 (F := Ideal) Q K i = rowExp (score Q K (i 1) (i 2)) (i 3) := by
  rw [val_main_v9_apply, val_main_v8_apply, scores_eq, rowmax_bcast_eq]
  rfl

/-- Their sums along the row. -/
theorem rowsum_eq (j : S1x16x2048.Idx) : val_main_v10 (F := Ideal) Q K j = rowSum (score Q K (j 1) (j 2)) := by
  rw [val_main_v10_apply, val_main_cst_2_apply]
  show Ideal.ofBits .f32 0x00000000#32 + _ = _
  rw [Ideal.ofBits_zero_f32, zero_add]
  unfold rowSum
  refine Finset.sum_congr rfl fun k _ => ?_
  rw [exps_eq]
  rfl

theorem rowsum_bcast_eq (i : S1x16x2048x2048.Idx) : val_main_v12 (F := Ideal) Q K i = rowSum (score Q K (i 1) (i 2)) := by
  rw [val_main_v12_apply, val_main_v11_apply, rowsum_eq]
  rfl

/-- THE ATTENTION WEIGHTS. -/
theorem attn_eq : val_main_v13 (F := Ideal) Q K = attn Q K := by
  funext i
  rw [val_main_v13_apply, exps_eq, rowsum_bcast_eq]
  rfl

/-- THE CONTEXT. -/
theorem ctx_eq : val_main_v14 (F := Ideal) Q K V = ctx Q K V := by
  funext i
  rw [val_main_v14_apply, attn_eq]
  unfold ctx
  refine Finset.sum_congr rfl fun k _ => ?_
  rw [ridx14_eq]
  rfl

end Cert.ReferenceIdeal.RefValue

end
-- ==== Proof.KernelBlock.lean ====
/-
  What the kernel's body computes from one grid point's blocks, index by index.

  The body holds a block of 1024 query rows `P0` and a head's 2048 key rows `P1` and value rows `P2`. Row `r` of
  the block has the scaled scores `s c = (Σ_d P0[r,d] · P1[c,d]) · (1/8)`; the body takes the row's maximum (from
  `-∞`), the shifted exponentials `e c`, their sum `L`, the reciprocal `1 / L`, and stores `e c · (1 / L)` as the
  weights; the context block is `Σ_c weight[r,c] · P2[c,d]`. Narrowing to bf16 before each product is the identity on
  the extended reals. For real scores `e c · (1 / L)` is the quotient `e c / L` (`Softmax.lean`).
-/
import proofs.«179767_j70695161692391_1_alg».proof.Proof.Gen.KernelIdeal.Value
import proofs.«179767_j70695161692391_1_alg».proof.Proof.Softmax
import Idealize.ShloMosaic.PureOps.Ideal.Laws
import Idealize.ShloMosaic.Lib.Pipeline.Value
import Idealize.ShloMosaic.Lib.ValueIdx
import Idealize.ShloMosaic.Lib.IdealHost

noncomputable section

namespace Cert.KernelIdeal.Block

open Cert.KernelIdeal Cert.KernelIdeal.Gen
open Idealize.ShloMosaic Idealize.ShloMosaic.ValueIdx Cert.Softmax

/-! ## The two matrix products at an index -/

theorem lhs_qk_0 (j : S1024x2048.Idx) (q : dot_S1024x64_S2048x64_S1024x2048_1_1_0_0_n_n.contr.Idx) :
    (dot_S1024x64_S2048x64_S1024x2048_1_1_0_0_n_n.lhsIdx j q 0).val = (j 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_qk_1 (j : S1024x2048.Idx) (q : dot_S1024x64_S2048x64_S1024x2048_1_1_0_0_n_n.contr.Idx) :
    (dot_S1024x64_S2048x64_S1024x2048_1_1_0_0_n_n.lhsIdx j q 1).val = (q ⟨0, by decide⟩).val :=
  dot_S1024x64_S2048x64_S1024x2048_1_1_0_0_n_n.lhsIdx_val_of_single rfl j q
theorem rhs_qk_0 (j : S1024x2048.Idx) (q : dot_S1024x64_S2048x64_S1024x2048_1_1_0_0_n_n.contr.Idx) :
    (dot_S1024x64_S2048x64_S1024x2048_1_1_0_0_n_n.rhsIdx j q 0).val = (j 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_qk_1 (j : S1024x2048.Idx) (q : dot_S1024x64_S2048x64_S1024x2048_1_1_0_0_n_n.contr.Idx) :
    (dot_S1024x64_S2048x64_S1024x2048_1_1_0_0_n_n.rhsIdx j q 1).val = (q ⟨0, by decide⟩).val :=
  dot_S1024x64_S2048x64_S1024x2048_1_1_0_0_n_n.rhsIdx_val_of_single rfl j q

/-- Queries times keys, contracted over the head width: entry (r, c) sums over `d` row `r` of the left times row `c`
    of the right. -/
theorem qk_apply (A : FVec Ideal S1024x64 .bf16) (B : FVec Ideal S2048x64 .bf16) (r : Fin 1024) (c : Fin 2048) :
    matmul dot_S1024x64_S2048x64_S1024x2048_1_1_0_0_n_n none A B (constant (F := Ideal) S1024x2048 .f32 0x00000000#32) (ix2 r c)
      = ∑ d : Fin 64, A (ix2 r d) * B (ix2 c d) := by
  simp only [matmul]
  rw [Ideal.matmul_constant_zero_apply, ← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 r c) ((contrEquiv1 dot_S1024x64_S2048x64_S1024x2048_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S1024x64_S2048x64_S1024x2048_1_1_0_0_n_n.rhsIdx (ix2 r c) ((contrEquiv1 dot_S1024x64_S2048x64_S1024x2048_1_1_0_0_n_n 64 rfl rfl).symm k) = ix2 c k := funext fun a => Fin.ext (by
    match a with
    | ⟨0, _⟩ => exact rhs_qk_0 _ _
    | ⟨1, _⟩ => exact (rhs_qk_1 _ _).trans hk)
  rw [el, er]

theorem lhs_av_0 (j : S1024x64.Idx) (q : dot_S1024x2048_S2048x64_S1024x64_1_0_0_1_n_n.contr.Idx) :
    (dot_S1024x2048_S2048x64_S1024x64_1_0_0_1_n_n.lhsIdx j q 0).val = (j 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_av_1 (j : S1024x64.Idx) (q : dot_S1024x2048_S2048x64_S1024x64_1_0_0_1_n_n.contr.Idx) :
    (dot_S1024x2048_S2048x64_S1024x64_1_0_0_1_n_n.lhsIdx j q 1).val = (q ⟨0, by decide⟩).val :=
  dot_S1024x2048_S2048x64_S1024x64_1_0_0_1_n_n.lhsIdx_val_of_single rfl j q
theorem rhs_av_0 (j : S1024x64.Idx) (q : dot_S1024x2048_S2048x64_S1024x64_1_0_0_1_n_n.contr.Idx) :
    (dot_S1024x2048_S2048x64_S1024x64_1_0_0_1_n_n.rhsIdx j q 0).val = (q ⟨0, by decide⟩).val :=
  dot_S1024x2048_S2048x64_S1024x64_1_0_0_1_n_n.rhsIdx_val_of_single rfl j q
theorem rhs_av_1 (j : S1024x64.Idx) (q : dot_S1024x2048_S2048x64_S1024x64_1_0_0_1_n_n.contr.Idx) :
    (dot_S1024x2048_S2048x64_S1024x64_1_0_0_1_n_n.rhsIdx j q 1).val = (j 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Weights times values, contracted over the key position. -/
theorem av_apply (A : FVec Ideal S1024x2048 .bf16) (B : FVec Ideal S2048x64 .bf16) (r : Fin 1024) (d : Fin 64) :
    matmul dot_S1024x2048_S2048x64_S1024x64_1_0_0_1_n_n none A B (constant (F := Ideal) S1024x64 .f32 0x00000000#32) (ix2 r d)
      = ∑ k : Fin 2048, A (ix2 r k) * B (ix2 k d) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r d) ((contrEquiv1 dot_S1024x2048_S2048x64_S1024x64_1_0_0_1_n_n 2048 rfl rfl).symm k) = ix2 r k := funext fun a => Fin.ext (by
    match a with
    | ⟨0, _⟩ => exact lhs_av_0 _ _
    | ⟨1, _⟩ => exact (lhs_av_1 _ _).trans hk)
  have er : dot_S1024x2048_S2048x64_S1024x64_1_0_0_1_n_n.rhsIdx (ix2 r d) ((contrEquiv1 dot_S1024x2048_S2048x64_S1024x64_1_0_0_1_n_n 2048 rfl rfl).symm k) = ix2 k d := funext fun a => Fin.ext (by
    match a with
    | ⟨0, _⟩ => exact (rhs_av_0 _ _).trans hk
    | ⟨1, _⟩ => exact rhs_av_1 _ _)
  rw [el, er]

/-! ## The layout operations at an index -/

/-- A staged block [1, 1, n, 64] read as the matrix [n, 64]. -/
theorem cast_rows_q (X : S1x1x1024x64.Idx → EReal) (r : Fin 1024) (d : Fin 64) :
    shapeCast S1024x64 X shapeCasts_S1x1x1024x64_S1024x64 (ix2 r d) = X (ix4 (0 : Fin 1) (0 : Fin 1) r d) := by
  refine shapeCast_apply _ _ _ _ ?_
  rw [Shape.rowMajor_val_two, Shape.rowMajor_val_four]
  show ((0 * 1 + 0) * 1024 + r.val) * 64 + d.val = r.val * 64 + d.val
  omega

theorem cast_rows_kv (X : S1x1x2048x64.Idx → EReal) (r : Fin 2048) (d : Fin 64) :
    shapeCast S2048x64 X shapeCasts_S1x1x2048x64_S2048x64 (ix2 r d) = X (ix4 (0 : Fin 1) (0 : Fin 1) r d) := by
  refine shapeCast_apply _ _ _ _ ?_
  rw [Shape.rowMajor_val_two, Shape.rowMajor_val_four]
  show ((0 * 1 + 0) * 2048 + r.val) * 64 + d.val = r.val * 64 + d.val
  omega

/-- The matrix [1024, 64] read back as the block [1, 1, 1024, 64]. -/
theorem cast_block_ctx (X : S1024x64.Idx → EReal) (r : Fin 1024) (d : Fin 64) :
    shapeCast S1x1x1024x64 X shapeCasts_S1024x64_S1x1x1024x64 (ix4 (0 : Fin 1) (0 : Fin 1) r d) = X (ix2 r d) := by
  refine shapeCast_apply _ _ _ _ ?_
  rw [Shape.rowMajor_val_two, Shape.rowMajor_val_four]
  show r.val * 64 + d.val = ((0 * 1 + 0) * 1024 + r.val) * 64 + d.val
  omega

/-- The matrix [1024, 2048] read back as the block [1, 1, 1024, 2048]. -/
theorem cast_block_attn (X : S1024x2048.Idx → EReal) (r : Fin 1024) (c : Fin 2048) :
    shapeCast S1x1x1024x2048 X shapeCasts_S1024x2048_S1x1x1024x2048 (ix4 (0 : Fin 1) (0 : Fin 1) r c) = X (ix2 r c) := by
  refine shapeCast_apply _ _ _ _ ?_
  rw [Shape.rowMajor_val_two, Shape.rowMajor_val_four]
  show r.val * 2048 + c.val = ((0 * 1 + 0) * 1024 + r.val) * 2048 + c.val
  omega

/-- A vector of row values as a column. -/
theorem cast_col (X : S1024.Idx → EReal) (r : Fin 1024) :
    shapeCast S1024x1 X shapeCasts_S1024_S1024x1 (ix2 r (0 : Fin 1)) = X (ix1 r) := by
  refine shapeCast_apply _ _ _ _ ?_
  rw [Shape.rowMajor_val_one, Shape.rowMajor_val_two]
  show r.val = r.val * 1 + 0
  omega

/-- A column spread along its rows. -/
theorem bcast_col (Y : S1024x1.Idx → EReal) (r : Fin 1024) (c : Fin 2048) :
    broadcastTo S1024x2048 Y broadcasts_S1024x1_S1024x2048 (ix2 r c) = Y (ix2 r (0 : Fin 1)) := by
  refine broadcastTo_apply _ _ _ _ (fun a => ?_)
  match a with
  | ⟨0, _⟩ => show r.val = if (1024 : Nat) = 1 then 0 else r.val; rw [if_neg (by decide)]
  | ⟨1, _⟩ => show 0 = if (1 : Nat) = 1 then 0 else c.val; rw [if_pos rfl]

/-- The index a reduction over the second axis inserts is the pair. -/
theorem lift_eq (r : Fin 1024) (c : Fin 2048) : reduces_S1024x2048_S1024.lift (ix1 r) c = ix2 r c :=
  funext fun a => Fin.ext (by
    match a with
    | ⟨0, _⟩ => rfl
    | ⟨1, _⟩ => rfl)

/-! ## The body's stages, from the blocks -/

variable (P0 : Vec Ideal S1x1x1024x64 .f32) (P1 P2 : Vec Ideal S1x1x2048x64 .f32)

/-- Row `r`'s scaled scores from the blocks. -/
def bscore (r : Fin 1024) : Fin 2048 → EReal := fun c =>
  (∑ d : Fin 64, P0 (ix4 (0 : Fin 1) (0 : Fin 1) r d) * P1 (ix4 (0 : Fin 1) (0 : Fin 1) c d)) * Ideal.ofBits .f32 0x3E000000#32

/-- The body's scaled scores. -/
def sc : FVec Ideal S1024x2048 .f32 :=
  mulf (matmul dot_S1024x64_S2048x64_S1024x2048_1_1_0_0_n_n none (truncf .bf16 (shapeCast S1024x64 P0 shapeCasts_S1x1x1024x64_S1024x64) bitsLt_bf16_f32)
      (truncf .bf16 (shapeCast S2048x64 P1 shapeCasts_S1x1x2048x64_S2048x64) bitsLt_bf16_f32) (constant S1024x2048 .f32 0x00000000#32))
    (broadcast S1024x2048 (Scalar.ofBits .f32 0x3E000000#32))

/-- Their row maxima. -/
def mx : FVec Ideal S1024 .f32 :=
  multiReduction .maximumf [1] S1024 (sc P0 P1) 0xFF800000#32 reduces_S1024x2048_S1024 (.inl rfl) rfl

/-- The shifted exponentials. -/
def ex : FVec Ideal S1024x2048 .f32 :=
  exp (subf (sc P0 P1) (broadcastTo S1024x2048 (shapeCast S1024x1 (mx P0 P1) shapeCasts_S1024_S1024x1) broadcasts_S1024x1_S1024x2048))

/-- Their row sums. -/
def sm : FVec Ideal S1024 .f32 :=
  multiReduction .add [1] S1024 (ex P0 P1) 0x00000000#32 reduces_S1024x2048_S1024 (.inl rfl) rfl

/-- The weights the body stores: exponentials times the reciprocal of their row sum. -/
theorem pay1_eq : k0_pay1 P0 P1 = mulf (ex P0 P1) (broadcastTo S1024x2048
    (divf (broadcast S1024x1 (Scalar.ofBits .f32 0x3F800000#32)) (shapeCast S1024x1 (sm P0 P1) shapeCasts_S1024_S1024x1))
    broadcasts_S1024x1_S1024x2048) := rfl

/-- The context the body stores: the weights times the values, re-laid as a block. -/
theorem pay3_eq : k0_pay3 P0 P1 P2 = shapeCast S1x1x1024x64
    (matmul dot_S1024x2048_S2048x64_S1024x64_1_0_0_1_n_n none (truncf .bf16 (k0_pay1 P0 P1) bitsLt_bf16_f32)
      (truncf .bf16 (shapeCast S2048x64 P2 shapeCasts_S1x1x2048x64_S2048x64) bitsLt_bf16_f32) (constant S1024x64 .f32 0x00000000#32))
    shapeCasts_S1024x64_S1x1x1024x64 := rfl

theorem sc_apply (r : Fin 1024) (c : Fin 2048) : sc P0 P1 (ix2 r c) = bscore P0 P1 r c := by
  unfold sc bscore
  show (matmul dot_S1024x64_S2048x64_S1024x2048_1_1_0_0_n_n none (truncf .bf16 (shapeCast S1024x64 P0 shapeCasts_S1x1x1024x64_S1024x64) bitsLt_bf16_f32)
      (truncf .bf16 (shapeCast S2048x64 P1 shapeCasts_S1x1x2048x64_S2048x64) bitsLt_bf16_f32) (constant (F := Ideal) S1024x2048 .f32 0x00000000#32)) (ix2 r c)
    * Ideal.ofBits .f32 0x3E000000#32 = _
  rw [qk_apply]
  refine congrArg (· * Ideal.ofBits .f32 0x3E000000#32) (Finset.sum_congr rfl fun d _ => ?_)
  show shapeCast S1024x64 P0 shapeCasts_S1x1x1024x64_S1024x64 (ix2 r d) * shapeCast S2048x64 P1 shapeCasts_S1x1x2048x64_S2048x64 (ix2 c d) = _
  rw [cast_rows_q, cast_rows_kv]

theorem mx_apply (r : Fin 1024) : mx P0 P1 (ix1 r) = rowMax (bscore P0 P1 r) := by
  unfold mx
  refine (Ideal.multiReduction_maximumf_single (sc P0 P1) 0xFF800000#32 reduces_S1024x2048_S1024 (.inl rfl) rfl (ix1 r)).trans ?_
  have ec : ∀ c : Fin 2048, (sc P0 P1 ∘ reduces_S1024x2048_S1024.lift (ix1 r)) c = bscore P0 P1 r c := fun c => by
    show sc P0 P1 (reduces_S1024x2048_S1024.lift (ix1 r) c) = _
    rw [lift_eq, sc_apply]
  have ef : (sc P0 P1 ∘ reduces_S1024x2048_S1024.lift (ix1 r)) = bscore P0 P1 r := funext ec
  rw [ef]
  show (Finset.univ : Finset (Fin 2048)).fold max (Ideal.ofBits .f32 0xFF800000#32) _ = _
  rw [ofBits_neg_inf]
  rfl

theorem ex_apply (r : Fin 1024) (c : Fin 2048) : ex P0 P1 (ix2 r c) = rowExp (bscore P0 P1 r) c := by
  unfold ex rowExp
  show Ideal.exp (sc P0 P1 (ix2 r c) - broadcastTo S1024x2048 (shapeCast S1024x1 (mx P0 P1) shapeCasts_S1024_S1024x1) broadcasts_S1024x1_S1024x2048 (ix2 r c)) = _
  rw [bcast_col, cast_col, mx_apply, sc_apply]

theorem sm_apply (r : Fin 1024) : sm P0 P1 (ix1 r) = rowSum (bscore P0 P1 r) := by
  unfold sm rowSum
  refine (Ideal.multiReduction_add_single (ex P0 P1) 0x00000000#32 reduces_S1024x2048_S1024 (.inl rfl) rfl (ix1 r)).trans ?_
  show ∑ c : Fin 2048, ex P0 P1 (reduces_S1024x2048_S1024.lift (ix1 r) c) = ∑ c : Fin 2048, rowExp (bscore P0 P1 r) c
  refine Finset.sum_congr rfl fun (c : Fin 2048) _ => ?_
  rw [lift_eq, ex_apply]

/-- THE WEIGHTS the body stores, for a row of real scores: the row's softmax. -/
theorem pay1_apply (r : Fin 1024) (c : Fin 2048) (hs : ∀ j, ∃ x : ℝ, bscore P0 P1 r j = (x : EReal)) :
    k0_pay1 P0 P1 (ix2 r c) = weight (bscore P0 P1 r) c := by
  rw [pay1_eq]
  show ex P0 P1 (ix2 r c) * broadcastTo S1024x2048
    (divf (broadcast S1024x1 (Scalar.ofBits (F := Ideal) .f32 0x3F800000#32)) (shapeCast S1024x1 (sm P0 P1) shapeCasts_S1024_S1024x1))
    broadcasts_S1024x1_S1024x2048 (ix2 r c) = _
  rw [bcast_col]
  show ex P0 P1 (ix2 r c) * Ideal.div (Ideal.ofBits .f32 0x3F800000#32) (shapeCast S1024x1 (sm P0 P1) shapeCasts_S1024_S1024x1 (ix2 r (0 : Fin 1))) = _
  rw [cast_col, sm_apply, ex_apply, Ideal.ofBits_one_f32]
  exact rowExp_mul_one_div _ _ hs

/-- The weights re-laid as the block the body stores. -/
theorem pay2_apply (r : Fin 1024) (c : Fin 2048) :
    k0_pay2 P0 P1 (ix4 (0 : Fin 1) (0 : Fin 1) r c) = k0_pay1 P0 P1 (ix2 r c) :=
  cast_block_attn (k0_pay1 P0 P1) r c

/-- THE CONTEXT the body stores: the stored weights applied to the value rows. -/
theorem pay3_apply (r : Fin 1024) (d : Fin 64) :
    k0_pay3 P0 P1 P2 (ix4 (0 : Fin 1) (0 : Fin 1) r d) = ∑ k : Fin 2048, k0_pay1 P0 P1 (ix2 r k) * P2 (ix4 (0 : Fin 1) (0 : Fin 1) k d) := by
  rw [pay3_eq, cast_block_ctx, av_apply]
  refine Finset.sum_congr rfl fun k _ => ?_
  show k0_pay1 P0 P1 (ix2 r k) * shapeCast S2048x64 P2 shapeCasts_S1x1x2048x64_S2048x64 (ix2 k d) = _
  rw [cast_rows_kv]

end Cert.KernelIdeal.Block

end
-- ==== Proof.KernelPoint.lean ====
/-
  One grid point's stored blocks are the attention weights and the context at the array indices under them.

  The point of head `h` and query tile `qi` holds query rows `qi·1024 + r` of head `h` and all key and value rows
  of head `h`. So row `r` of the block has exactly the scores of query position `qi·1024 + r`, and what the body
  stores at block index (0, 0, r, c) is the attention weight at (0, h, qi·1024 + r, c); likewise the context.
  Real queries and keys make the scores real, which is what lets the body's `e · (1 / L)` be read as `e / L`.
-/
import proofs.«179767_j70695161692391_1_alg».proof.Proof.KernelBlock
import proofs.«179767_j70695161692391_1_alg».proof.Proof.Spec

noncomputable section

namespace Cert.KernelIdeal.Point

open Cert.KernelIdeal Cert.KernelIdeal.Gen Cert.KernelIdeal.Block
open Idealize.ShloMosaic Idealize.ShloMosaic.ValueIdx Cert.Softmax Cert.Attention

/-- A block index's two leading coordinates are zero. -/
theorem eq_unit_attn (y : S1x1x1024x2048.Idx) : y = ix4 (0 : Fin 1) (0 : Fin 1) (y 2) (y 3) := by
  funext d; apply Fin.ext
  match d with
  | ⟨0, _⟩ => show (y 0).val = 0; have h0 : (y 0).val < 1 := (y 0).isLt; omega
  | ⟨1, _⟩ => show (y 1).val = 0; have h1 : (y 1).val < 1 := (y 1).isLt; omega
  | ⟨2, _⟩ => rfl
  | ⟨3, _⟩ => rfl

theorem eq_unit_ctx (y : S1x1x1024x64.Idx) : y = ix4 (0 : Fin 1) (0 : Fin 1) (y 2) (y 3) := by
  funext d; apply Fin.ext
  match d with
  | ⟨0, _⟩ => show (y 0).val = 0; have h0 : (y 0).val < 1 := (y 0).isLt; omega
  | ⟨1, _⟩ => show (y 1).val = 0; have h1 : (y 1).val < 1 := (y 1).isLt; omega
  | ⟨2, _⟩ => rfl
  | ⟨3, _⟩ => rfl

variable (Q K V : S1x16x2048x64.Idx → EReal)
variable (P0 : Vec Ideal S1x1x1024x64 .f32) (P1 P2 : Vec Ideal S1x1x2048x64 .f32)
variable (h : Fin 16) (qi : Fin 2)

/-- The block's row `r` has the scores of query position `qi·1024 + r` of head `h`. -/
theorem score_block
    (e0 : ∀ (r : Fin 1024) (d : Fin 64) (q : Fin 2048), q.val = qi.val * 1024 + r.val →
      P0 (ix4 (0 : Fin 1) (0 : Fin 1) r d) = Q (ix4 (0 : Fin 1) h q d))
    (e1 : ∀ (k : Fin 2048) (d : Fin 64), P1 (ix4 (0 : Fin 1) (0 : Fin 1) k d) = K (ix4 (0 : Fin 1) h k d))
    (r : Fin 1024) (q : Fin 2048) (hq : q.val = qi.val * 1024 + r.val) : bscore P0 P1 r = score Q K h q := by
  funext k
  unfold bscore score
  refine congrArg (· * Ideal.ofBits .f32 0x3E000000#32) (Finset.sum_congr rfl fun d _ => ?_)
  rw [e0 r d q hq, e1 k d]

/-- THE WEIGHTS at a point: block index `y` holds the attention weight at any array index `i` of head `h`, query
    position `qi·1024 + y₂`, key position `y₃`. -/
theorem attn_point (hQ : ∀ i, ∃ x : ℝ, Q i = (x : EReal)) (hK : ∀ i, ∃ x : ℝ, K i = (x : EReal))
    (e0 : ∀ (r : Fin 1024) (d : Fin 64) (q : Fin 2048), q.val = qi.val * 1024 + r.val →
      P0 (ix4 (0 : Fin 1) (0 : Fin 1) r d) = Q (ix4 (0 : Fin 1) h q d))
    (e1 : ∀ (k : Fin 2048) (d : Fin 64), P1 (ix4 (0 : Fin 1) (0 : Fin 1) k d) = K (ix4 (0 : Fin 1) h k d))
    (y : S1x1x1024x2048.Idx) (i : S1x16x2048x2048.Idx) (h1 : (i 1).val = h.val)
    (h2 : (i 2).val = qi.val * 1024 + (y 2).val) (h3 : (i 3).val = (y 3).val) :
    k0_pay2 P0 P1 y = attn Q K i := by
  obtain ⟨r, c, rfl⟩ : ∃ (r : Fin 1024) (c : Fin 2048), y = ix4 (0 : Fin 1) (0 : Fin 1) r c := ⟨y 2, y 3, eq_unit_attn y⟩
  have h2' : (i 2).val = qi.val * 1024 + r.val := h2
  have h3' : (i 3).val = c.val := h3
  have hb : bscore P0 P1 r = score Q K h (i 2) := score_block Q K P0 P1 h qi e0 e1 r (i 2) h2'
  have hs : ∀ j : Fin 2048, ∃ x : ℝ, bscore P0 P1 r j = (x : EReal) := fun j => by
    rw [hb]; exact score_real Q K hQ hK h (i 2) j
  rw [pay2_apply, pay1_apply P0 P1 r c hs, hb]
  have a1 : i 1 = h := Fin.ext h1
  have a3 : i 3 = c := Fin.ext h3'
  show _ = weight (score Q K (i 1) (i 2)) (i 3)
  rw [a1, a3]

/-- THE CONTEXT at a point. -/
theorem ctx_point (hQ : ∀ i, ∃ x : ℝ, Q i = (x : EReal)) (hK : ∀ i, ∃ x : ℝ, K i = (x : EReal))
    (e0 : ∀ (r : Fin 1024) (d : Fin 64) (q : Fin 2048), q.val = qi.val * 1024 + r.val →
      P0 (ix4 (0 : Fin 1) (0 : Fin 1) r d) = Q (ix4 (0 : Fin 1) h q d))
    (e1 : ∀ (k : Fin 2048) (d : Fin 64), P1 (ix4 (0 : Fin 1) (0 : Fin 1) k d) = K (ix4 (0 : Fin 1) h k d))
    (e2 : ∀ (k : Fin 2048) (d : Fin 64), P2 (ix4 (0 : Fin 1) (0 : Fin 1) k d) = V (ix4 (0 : Fin 1) h k d))
    (y : S1x1x1024x64.Idx) (i : S1x16x2048x64.Idx) (h1 : (i 1).val = h.val)
    (h2 : (i 2).val = qi.val * 1024 + (y 2).val) (h3 : (i 3).val = (y 3).val) :
    k0_pay3 P0 P1 P2 y = ctx Q K V i := by
  obtain ⟨r, d, rfl⟩ : ∃ (r : Fin 1024) (d : Fin 64), y = ix4 (0 : Fin 1) (0 : Fin 1) r d := ⟨y 2, y 3, eq_unit_ctx y⟩
  have h2' : (i 2).val = qi.val * 1024 + r.val := h2
  have h3' : (i 3).val = d.val := h3
  have hb : bscore P0 P1 r = score Q K h (i 2) := score_block Q K P0 P1 h qi e0 e1 r (i 2) h2'
  have hs : ∀ j : Fin 2048, ∃ x : ℝ, bscore P0 P1 r j = (x : EReal) := fun j => by
    rw [hb]; exact score_real Q K hQ hK h (i 2) j
  rw [pay3_apply]
  have a1 : i 1 = h := Fin.ext h1
  have a3 : i 3 = d := Fin.ext h3'
  show _ = ∑ k : Fin 2048, weight (score Q K (i 1) (i 2)) k * V (ix4 (0 : Fin 1) (i 1) k (i 3))
  rw [a1, a3]
  refine Finset.sum_congr rfl fun (k : Fin 2048) _ => ?_
  rw [pay1_apply P0 P1 r k hs, hb, e2]

end Cert.KernelIdeal.Point

end
-- ==== Proof.KernelArrays.lean ====
/-
  From the grid's blocks to the two result arrays.

  The grid has a point for every head `h` (16) and query tile `qi` (2). Its query block and both result blocks sit
  at block index (0, h, qi, 0), its key and value blocks at (0, h, 0, 0). An array coordinate under a block is block
  index times block size plus the coordinate inside the block, so block row `r` is query position `qi·1024 + r`.
  With `KernelPoint.lean` each point therefore writes back exactly the block of the attention weights (of the
  context) under it, and since every array index lies under the block of the point (h, qi) = (i₁, i₂ / 1024), the two
  arrays end holding the attention weights and the context whole.
-/
import proofs.«179767_j70695161692391_1_alg».proof.Proof.KernelPoint

noncomputable section

namespace Cert.KernelIdeal.Arrays

open Cert.KernelIdeal Cert.KernelIdeal.Gen Cert.KernelIdeal.Point
open Idealize.ShloMosaic Idealize.ShloMosaic.TcCoe Idealize.ShloMosaic.ValueIdx Idealize.SL.Sem
open Idealize.ShloMosaic.Pipeline (Dat)
open Cert.Attention

variable (m : (ℓ : Loc nD τ sig) → Buf (Elt Ideal) ℓ) (ρ : Dev nD → PrngReg)

theorem hz : (![0, 0, 0, 0] : Fin 4 → Nat) = fun _ => 0 := funext fun a => by fin_cases a <;> rfl

/-- Where each window's block sits at a grid point, decided over the 32 points. -/
theorem idx_facts : ∀ t : Fin cfg0.N,
    (win0_0.index t (0 : Fin 4) = 0 ∧ win0_0.index t (1 : Fin 4) = (grid0.coords t 0).val ∧ win0_0.index t (2 : Fin 4) = (grid0.coords t 1).val ∧ win0_0.index t (3 : Fin 4) = 0)
    ∧ (win0_1.index t (0 : Fin 4) = 0 ∧ win0_1.index t (1 : Fin 4) = (grid0.coords t 0).val ∧ win0_1.index t (2 : Fin 4) = 0 ∧ win0_1.index t (3 : Fin 4) = 0)
    ∧ (win0_2.index t (0 : Fin 4) = 0 ∧ win0_2.index t (1 : Fin 4) = (grid0.coords t 0).val ∧ win0_2.index t (2 : Fin 4) = 0 ∧ win0_2.index t (3 : Fin 4) = 0)
    ∧ (win0_3.index t (0 : Fin 4) = 0 ∧ win0_3.index t (1 : Fin 4) = (grid0.coords t 0).val ∧ win0_3.index t (2 : Fin 4) = (grid0.coords t 1).val ∧ win0_3.index t (3 : Fin 4) = 0)
    ∧ (win0_4.index t (0 : Fin 4) = 0 ∧ win0_4.index t (1 : Fin 4) = (grid0.coords t 0).val ∧ win0_4.index t (2 : Fin 4) = (grid0.coords t 1).val ∧ win0_4.index t (3 : Fin 4) = 0) :=
  (by decide +kernel : ∀ t : Fin grid0.N, _)

/-- Every (head, query tile) is some point's. -/
theorem pts_onto : ∀ (h : Fin 16) (q : Fin 2), ∃ t : Fin cfg0.N, (grid0.coords t 0).val = h.val ∧ (grid0.coords t 1).val = q.val :=
  (by decide +kernel : ∀ (h : Fin 16) (q : Fin 2), ∃ t : Fin grid0.N, (grid0.coords t 0).val = h.val ∧ (grid0.coords t 1).val = q.val)

/-! ## The attention weights (output window 4) -/

/-- WHAT POINT `t` WRITES BACK is the block of the attention weights under it. -/
theorem flushed_attn (c : Dev nD) (hQ : ∀ i, ∃ x : ℝ, V m c main_arg0 i = (x : EReal)) (hK : ∀ i, ∃ x : ℝ, V m c main_arg1 i = (x : EReal))
    (t : Fin cfg0.N) :
    (dats m 0 c).flushed 4 t = ((cfg0.win 4).blk t).view.read (Elt Ideal) (attn (V m c main_arg0) (V m c main_arg1)) := by
  rw [Cert.KernelIdeal.Value.flushed4]
  unfold out0_4
  rw [View.canon_unit_zero hz]
  simp only [View.ld_unit_zero (S := S1x1x1024x64) hz, View.ld_unit_zero (S := S1x1x2048x64) hz]
  obtain ⟨⟨a0, a1, a2, a3⟩, ⟨b0, b1, b2, b3⟩, -, -, ⟨f0, f1, f2, f3⟩⟩ := idx_facts t
  have hh : (grid0.coords t 0).val < 16 := (grid0.coords t 0).isLt
  have hq : (grid0.coords t 1).val < 2 := (grid0.coords t 1).isLt
  generalize hhd : (⟨(grid0.coords t 0).val, hh⟩ : Fin 16) = hd
  generalize hqd : (⟨(grid0.coords t 1).val, hq⟩ : Fin 2) = qd
  have hdv : hd.val = (grid0.coords t 0).val := by rw [← hhd]
  have qdv : qd.val = (grid0.coords t 1).val := by rw [← hqd]
  funext y
  show k0_pay2 (iblk m c 0 t) (iblk m c 1 t) y = attn (V m c main_arg0) (V m c main_arg1) (((cfg0.win 4).blk t).view.emb y)
  refine attn_point (V m c main_arg0) (V m c main_arg1) (iblk m c 0 t) (iblk m c 1 t) hd qd hQ hK ?_ ?_ y _ ?_ ?_ ?_
  · intro r d q hq0
    have hq1 : q.val = (grid0.coords t 1).val * 1024 + r.val := by rw [← qdv]; exact hq0
    show V m c main_arg0 (((cfg0.win 0).blk t).view.emb (ix4 (0 : Fin 1) (0 : Fin 1) r d)) = V m c main_arg0 (ix4 (0 : Fin 1) hd q d)
    refine congrArg (V m c main_arg0) (funext fun a => Fin.ext ?_)
    match a with
    | ⟨0, _⟩ => show win0_0.index t (0 : Fin 4) * 1 + 1 * 0 = 0; omega
    | ⟨1, _⟩ => show win0_0.index t (1 : Fin 4) * 1 + 1 * 0 = hd.val; omega
    | ⟨2, _⟩ => show win0_0.index t (2 : Fin 4) * 1024 + 1 * r.val = q.val; omega
    | ⟨3, _⟩ => show win0_0.index t (3 : Fin 4) * 64 + 1 * d.val = d.val; omega
  · intro k d
    show V m c main_arg1 (((cfg0.win 1).blk t).view.emb (ix4 (0 : Fin 1) (0 : Fin 1) k d)) = V m c main_arg1 (ix4 (0 : Fin 1) hd k d)
    refine congrArg (V m c main_arg1) (funext fun a => Fin.ext ?_)
    match a with
    | ⟨0, _⟩ => show win0_1.index t (0 : Fin 4) * 1 + 1 * 0 = 0; omega
    | ⟨1, _⟩ => show win0_1.index t (1 : Fin 4) * 1 + 1 * 0 = hd.val; omega
    | ⟨2, _⟩ => show win0_1.index t (2 : Fin 4) * 2048 + 1 * k.val = k.val; omega
    | ⟨3, _⟩ => show win0_1.index t (3 : Fin 4) * 64 + 1 * d.val = d.val; omega
  · show win0_4.index t (1 : Fin 4) * 1 + 1 * (y 1).val = hd.val
    have hy1 : (y 1).val < 1 := (y 1).isLt
    omega
  · show win0_4.index t (2 : Fin 4) * 1024 + 1 * (y 2).val = qd.val * 1024 + (y 2).val
    omega
  · show win0_4.index t (3 : Fin 4) * 2048 + 1 * (y 3).val = (y 3).val
    omega

/-- An index of the weights' array is in point `t`'s block iff each coordinate is in the block's range. -/
theorem mem_blk_attn (t : Fin cfg0.N) (i : S1x16x2048x2048.Idx) :
    i ∈ ((cfg0.win 4).blk t).view.set ↔ ∀ a : Fin 4, win0_4.index t a * S1x1x1024x2048.size a ≤ (i a).val
      ∧ (i a).val < win0_4.index t a * S1x1x1024x2048.size a + S1x1x1024x2048.size a := by
  show i ∈ ((View.whole main_v0_1).slice (win0_4.rect t)).set ↔ _
  rw [View.set_slice_whole, Rect.mem_set_unit]
  exact Iff.rfl

/-- Every index of the weights' array is under some point's block. -/
theorem cover_attn (i : S1x16x2048x2048.Idx) :
    ∃ t : Fin cfg0.N, (cfg0.win 4).flush t = true ∧ i ∈ ((cfg0.win 4).blk t).view.set := by
  have hi0 : (i 0).val < 1 := (i 0).isLt
  have hi1 : (i 1).val < 16 := (i 1).isLt
  have hi2 : (i 2).val < 2048 := (i 2).isLt
  have hi3 : (i 3).val < 2048 := (i 3).isLt
  obtain ⟨t, ht0, ht1⟩ := pts_onto ⟨(i 1).val, hi1⟩ ⟨(i 2).val / 1024, by omega⟩
  have ht0' : (grid0.coords t 0).val = (i 1).val := ht0
  have ht1' : (grid0.coords t 1).val = (i 2).val / 1024 := ht1
  obtain ⟨-, -, -, -, ⟨f0, f1, f2, f3⟩⟩ := idx_facts t
  refine ⟨t, flush0_4 t, ?_⟩
  rw [mem_blk_attn]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 2048 ≤ (i 3).val ∧ (i 3).val < win0_4.index t (3 : Fin 4) * 2048 + 2048; omega

/-- THE WEIGHTS' ARRAY after the run. -/
theorem final_attn (c : Dev nD) (hQ : ∀ i, ∃ x : ℝ, V m c main_arg0 i = (x : EReal)) (hK : ∀ i, ∃ x : ℝ, V m c main_arg1 i = (x : EReal)) :
    (dats m 0 c).arrAt 4 cfg0.N = attn (V m c main_arg0) (V m c main_arg1) :=
  (dats m 0 c).arrAt_eq_of_cover 4 (attn (V m c main_arg0) (V m c main_arg1)) (fun t _ => flushed_attn m c hQ hK t) cover_attn

/-! ## The context (output window 3) -/

/-- WHAT POINT `t` WRITES BACK is the block of the context under it. -/
theorem flushed_ctx (c : Dev nD) (hQ : ∀ i, ∃ x : ℝ, V m c main_arg0 i = (x : EReal)) (hK : ∀ i, ∃ x : ℝ, V m c main_arg1 i = (x : EReal))
    (t : Fin cfg0.N) :
    (dats m 0 c).flushed 3 t = ((cfg0.win 3).blk t).view.read (Elt Ideal) (ctx (V m c main_arg0) (V m c main_arg1) (V m c main_arg2)) := by
  rw [Cert.KernelIdeal.Value.flushed3]
  unfold out0_3
  rw [View.canon_unit_zero hz]
  simp only [View.ld_unit_zero (S := S1x1x1024x64) hz, View.ld_unit_zero (S := S1x1x2048x64) hz]
  obtain ⟨⟨a0, a1, a2, a3⟩, ⟨b0, b1, b2, b3⟩, ⟨c0, c1, c2, c3⟩, ⟨f0, f1, f2, f3⟩, -⟩ := idx_facts t
  have hh : (grid0.coords t 0).val < 16 := (grid0.coords t 0).isLt
  have hq : (grid0.coords t 1).val < 2 := (grid0.coords t 1).isLt
  generalize hhd : (⟨(grid0.coords t 0).val, hh⟩ : Fin 16) = hd
  generalize hqd : (⟨(grid0.coords t 1).val, hq⟩ : Fin 2) = qd
  have hdv : hd.val = (grid0.coords t 0).val := by rw [← hhd]
  have qdv : qd.val = (grid0.coords t 1).val := by rw [← hqd]
  funext y
  show k0_pay3 (iblk m c 0 t) (iblk m c 1 t) (iblk m c 2 t) y
    = ctx (V m c main_arg0) (V m c main_arg1) (V m c main_arg2) (((cfg0.win 3).blk t).view.emb y)
  refine ctx_point (V m c main_arg0) (V m c main_arg1) (V m c main_arg2) (iblk m c 0 t) (iblk m c 1 t) (iblk m c 2 t) hd qd hQ hK ?_ ?_ ?_ y _ ?_ ?_ ?_
  · intro r d q hq0
    have hq1 : q.val = (grid0.coords t 1).val * 1024 + r.val := by rw [← qdv]; exact hq0
    show V m c main_arg0 (((cfg0.win 0).blk t).view.emb (ix4 (0 : Fin 1) (0 : Fin 1) r d)) = V m c main_arg0 (ix4 (0 : Fin 1) hd q d)
    refine congrArg (V m c main_arg0) (funext fun a => Fin.ext ?_)
    match a with
    | ⟨0, _⟩ => show win0_0.index t (0 : Fin 4) * 1 + 1 * 0 = 0; omega
    | ⟨1, _⟩ => show win0_0.index t (1 : Fin 4) * 1 + 1 * 0 = hd.val; omega
    | ⟨2, _⟩ => show win0_0.index t (2 : Fin 4) * 1024 + 1 * r.val = q.val; omega
    | ⟨3, _⟩ => show win0_0.index t (3 : Fin 4) * 64 + 1 * d.val = d.val; omega
  · intro k d
    show V m c main_arg1 (((cfg0.win 1).blk t).view.emb (ix4 (0 : Fin 1) (0 : Fin 1) k d)) = V m c main_arg1 (ix4 (0 : Fin 1) hd k d)
    refine congrArg (V m c main_arg1) (funext fun a => Fin.ext ?_)
    match a with
    | ⟨0, _⟩ => show win0_1.index t (0 : Fin 4) * 1 + 1 * 0 = 0; omega
    | ⟨1, _⟩ => show win0_1.index t (1 : Fin 4) * 1 + 1 * 0 = hd.val; omega
    | ⟨2, _⟩ => show win0_1.index t (2 : Fin 4) * 2048 + 1 * k.val = k.val; omega
    | ⟨3, _⟩ => show win0_1.index t (3 : Fin 4) * 64 + 1 * d.val = d.val; omega
  · intro k d
    show V m c main_arg2 (((cfg0.win 2).blk t).view.emb (ix4 (0 : Fin 1) (0 : Fin 1) k d)) = V m c main_arg2 (ix4 (0 : Fin 1) hd k d)
    refine congrArg (V m c main_arg2) (funext fun a => Fin.ext ?_)
    match a with
    | ⟨0, _⟩ => show win0_2.index t (0 : Fin 4) * 1 + 1 * 0 = 0; omega
    | ⟨1, _⟩ => show win0_2.index t (1 : Fin 4) * 1 + 1 * 0 = hd.val; omega
    | ⟨2, _⟩ => show win0_2.index t (2 : Fin 4) * 2048 + 1 * k.val = k.val; omega
    | ⟨3, _⟩ => show win0_2.index t (3 : Fin 4) * 64 + 1 * d.val = d.val; omega
  · show win0_3.index t (1 : Fin 4) * 1 + 1 * (y 1).val = hd.val
    have hy1 : (y 1).val < 1 := (y 1).isLt
    omega
  · show win0_3.index t (2 : Fin 4) * 1024 + 1 * (y 2).val = qd.val * 1024 + (y 2).val
    omega
  · show win0_3.index t (3 : Fin 4) * 64 + 1 * (y 3).val = (y 3).val
    omega

theorem mem_blk_ctx (t : Fin cfg0.N) (i : S1x16x2048x64.Idx) :
    i ∈ ((cfg0.win 3).blk t).view.set ↔ ∀ a : Fin 4, win0_3.index t a * S1x1x1024x64.size a ≤ (i a).val
      ∧ (i a).val < win0_3.index t a * S1x1x1024x64.size a + S1x1x1024x64.size a := by
  show i ∈ ((View.whole main_v0_0).slice (win0_3.rect t)).set ↔ _
  rw [View.set_slice_whole, Rect.mem_set_unit]
  exact Iff.rfl

theorem cover_ctx (i : S1x16x2048x64.Idx) :
    ∃ t : Fin cfg0.N, (cfg0.win 3).flush t = true ∧ i ∈ ((cfg0.win 3).blk t).view.set := by
  have hi0 : (i 0).val < 1 := (i 0).isLt
  have hi1 : (i 1).val < 16 := (i 1).isLt
  have hi2 : (i 2).val < 2048 := (i 2).isLt
  have hi3 : (i 3).val < 64 := (i 3).isLt
  obtain ⟨t, ht0, ht1⟩ := pts_onto ⟨(i 1).val, hi1⟩ ⟨(i 2).val / 1024, by omega⟩
  have ht0' : (grid0.coords t 0).val = (i 1).val := ht0
  have ht1' : (grid0.coords t 1).val = (i 2).val / 1024 := ht1
  obtain ⟨-, -, -, ⟨f0, f1, f2, f3⟩, -⟩ := idx_facts t
  refine ⟨t, flush0_3 t, ?_⟩
  rw [mem_blk_ctx]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 64 ≤ (i 3).val ∧ (i 3).val < win0_3.index t (3 : Fin 4) * 64 + 64; omega

/-- THE CONTEXT'S ARRAY after the run. -/
theorem final_ctx (c : Dev nD) (hQ : ∀ i, ∃ x : ℝ, V m c main_arg0 i = (x : EReal)) (hK : ∀ i, ∃ x : ℝ, V m c main_arg1 i = (x : EReal)) :
    (dats m 0 c).arrAt 3 cfg0.N = ctx (V m c main_arg0) (V m c main_arg1) (V m c main_arg2) :=
  (dats m 0 c).arrAt_eq_of_cover 3 (ctx (V m c main_arg0) (V m c main_arg1) (V m c main_arg2)) (fun t _ => flushed_ctx m c hQ hK t) cover_ctx

/-! ## The run, read -/

/-- The kernel's run with both result arrays named: the context and the attention weights of real queries and keys. -/
theorem run (hfin : ∀ c : Dev nD, (∀ i, ∃ x : ℝ, m ((c : Thread nD τ).loc main_arg0) i = (x : EReal))
      ∧ (∀ i, ∃ x : ℝ, m ((c : Thread nD τ).loc main_arg1) i = (x : EReal))) :
    θ_run defs (onTc (τ := τ) (main (F := Ideal))) ⟨m, fun _ => 0, ρ⟩ fun r => ∀ c : Dev nD,
      r.2.mem ((c : Thread nD τ).loc main_v0_0)
        = ctx (m ((c : Thread nD τ).loc main_arg0)) (m ((c : Thread nD τ).loc main_arg1)) (m ((c : Thread nD τ).loc main_arg2))
      ∧ r.2.mem ((c : Thread nD τ).loc main_v0_1) = attn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_ctx m c (hfin c).1 (hfin c).2),
      (h c).2.1.trans (final_attn m c (hfin c).1 (hfin c).2), (h c).2.2⟩)
    (Cert.KernelIdeal.Value.run_blocks m ρ)

end Cert.KernelIdeal.Arrays

end
-- ==== Proof.Finite.lean ====
/-
  The precondition, read: every entry of the three argument arrays is a real number.

  `finite_inputs` is the conjunction, over the three arrays, of "every entry's absolute value is below `+∞`"
  (`jnp.all (|x| < inf)`). On the extended reals `|x| = max x (-x)` is `+∞` exactly at the two infinities, so an
  entry passing the test is a real.
-/
import proofs.«179767_j70695161692391_1_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Cert.Pre_finite_inputs Cert.Pre_finite_inputs.Gen

instance : Subsingleton S_.Idx := ⟨fun a b => funext fun d => d.elim0⟩

/-- The word `0x7F800000` is `+∞`. -/
theorem ofBits_pos_inf : Ideal.ofBits .f32 0x7F800000#32 = ⊤ := by
  simp [Ideal.ofBits, Ideal.ieee]

/-- An extended real whose absolute value is strictly below `+∞` is a real. -/
theorem real_of_abs_lt (x : EReal)
    (h : Ideal.cmp .olt (max x (-x)) (Ideal.ofBits .f32 0x7F800000#32) = 1#1) : ∃ r : ℝ, x = (r : EReal) := by
  rw [ofBits_pos_inf] at h
  induction x using EReal.rec
  · exfalso; simp [Ideal.cmp] at h
  · exact ⟨_, rfl⟩
  · exfalso; simp [Ideal.cmp] at h

/-- One array's test, at an entry. -/
theorem entry_real (a : FVec Ideal S1x16x2048x64 .f32)
    (h : Host.reduce IntOp.andi
        (cmpf .olt (Host.absf a) (broadcastInDim S1x16x2048x64 ![] bcast_S_S1x16x2048x64 (constant (F := Ideal) S_ .f32 0x7F800000#32)))
        (constantI S_ 1 1#1) reducesTo_S1x16x2048x64_S_d0_1_2_3 h_S_ ValueIdx.ix0 = 1#1)
    (i : S1x16x2048x64.Idx) : ∃ r : ℝ, a i = (r : EReal) :=
  real_of_abs_lt (a i) (Host.reduce_andi_all _ _ _ _ _ h i)

/-- THE PRECONDITION READ: all three arrays hold reals. -/
theorem reals_of_pre (a0 a1 a2 : FVec Ideal S1x16x2048x64 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.mp h0
  obtain ⟨h0', h1⟩ := IntOp.andi_eq_one.mp h01
  exact ⟨entry_real a0 h0', entry_real a1 h1, entry_real a2 h2⟩

end Cert.Finite

end
-- ==== Proof.lean ====
/-
  Scaled dot-product attention: a kernel tiled over (head, query tile) against the whole-array reference, equal on
  the extended reals under finite inputs.

  Both programs compute, for one batch, sixteen heads, 2048 positions and head width 64, the attention weights
  `A = softmax_k ((Q Kᵀ) / 8)` and the context `C = A V`. They differ in four places, none of which changes a value:
  the kernel multiplies the scores by `1/8` where the reference divides by `8` (equal at every extended real,
  since `1/8` is exact); the kernel narrows the operands of both products to bf16 (a change of format is the
  identity on the extended reals); the reference takes the row maximum once more against `-∞` (the identity); and
  the kernel forms the weights as `e · (1 / L)` where the reference forms `e / L`, `L` the row's sum of shifted
  exponentials. The last pair agrees whenever `L ≠ 0`, and differs at `L = 0`, `e = 0` (`0 · ∞ = 0` against
  `0 / 0 = -∞`): this is where the precondition is used. Finite inputs make every score a real, so the row maximum
  is below `+∞`, every shifted exponential is positive, and `L ≠ 0` (`Softmax.lean`).

  The modules: `Softmax.lean` (a row's softmax on the extended reals), `Spec.lean` (the weights and the context as
  functions of the three arrays), `RefAttention.lean` (the reference's two results are those functions),
  `KernelBlock.lean` (what the body stores from a point's blocks), `KernelPoint.lean` (that is the block of the
  weights, of the context, under the point), `KernelArrays.lean` (so the two result arrays end holding them whole),
  `Finite.lean` (the precondition says every entry is a real).
-/
import proofs.«179767_j70695161692391_1_alg».proof.Defs
import proofs.«179767_j70695161692391_1_alg».proof.Proof.Gen.Kernel.Frame
import proofs.«179767_j70695161692391_1_alg».proof.Proof.Gen.KernelIdeal.Frame
import proofs.«179767_j70695161692391_1_alg».proof.Proof.Gen.KernelIdeal.Value
import proofs.«179767_j70695161692391_1_alg».proof.Proof.Gen.ReferenceIdeal.Run
import proofs.«179767_j70695161692391_1_alg».proof.Proof.Gen.ReferenceIdeal.Read
import proofs.«179767_j70695161692391_1_alg».proof.Proof.Gen.Pre_finite_inputs
import proofs.«179767_j70695161692391_1_alg».proof.Proof.RefAttention
import proofs.«179767_j70695161692391_1_alg».proof.Proof.KernelArrays
import proofs.«179767_j70695161692391_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Under finite inputs both programs end with the context and the attention weights of `Spec.lean`: the kernel
    by its blocks (`KernelArrays.lean`, which needs the queries and keys real), the reference stage by stage
    (`RefAttention.lean`), from arguments that agree. -/
theorem algebraic : Cert.algebraic_KernelIdeal_ReferenceIdeal := by
  intro m ρ m' ρ' hpre hagree
  have hfin := fun c => Cert.Finite.reals_of_pre _ _ _ (hpre c)
  refine ⟨fun c => Cert.Attention.ctx (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => Cert.Attention.attn (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    Cert.KernelIdeal.Arrays.run m ρ (fun c => ⟨(hfin c).1, (hfin c).2.1⟩), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v14_eq, Cert.ReferenceIdeal.RefValue.ctx_eq,
      (hagree c).1, (hagree c).2.1, (hagree c).2.2]
  · rw [(h c).2.1, Cert.ReferenceIdeal.Read.val_main_v13_eq, Cert.ReferenceIdeal.RefValue.attn_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
